-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x25x128 : Shape := ⟨4, ![32, 512, 25, 128]⟩
abbrev S64x128 : Shape := ⟨2, ![64, 128]⟩
abbrev S256 : Shape := ⟨1, ![256]⟩
abbrev S_ : Shape := ⟨0, ![]⟩

class Facts : Prop where
  bcast_S_S32x512x25x128 : S_.BroadcastsInDim S32x512x25x128 (![] : Fin 0 → Fin S32x512x25x128.rank)
  reducesTo_S32x512x25x128_S_d0_1_2_3 : S32x512x25x128.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S32x512x25x128 .f32) (main_arg1 : FVec F S64x128 .f32) (main_arg2 : FVec F S64x128 .f32) (main_arg3 : IVec S256 32) (main_arg4 : IVec S256 32) : IVec S_ 1 :=
  let main_v0 : FVec F S32x512x25x128 .f32 := Host.absf main_arg0
  let main_cst : FVec F S_ .f32 := constant S_ .f32 0x7F800000#32
  let main_v1 : FVec F S32x512x25x128 .f32 := broadcastInDim S32x512x25x128 ![] bcast_S_S32x512x25x128 main_cst
  let main_v2 : IVec S32x512x25x128 1 := cmpf .olt main_v0 main_v1
  let main_c : IVec S_ 1 := constantI S_ 1 1#1
  let main_v3 : IVec S_ 1 := (fun x v => Host.reduce IntOp.andi x v reducesTo_S32x512x25x128_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S32x512x25x128 : Shape := ⟨4, ![32, 512, 25, 128]⟩
abbrev S64x128 : Shape := ⟨2, ![64, 128]⟩
abbrev S256 : Shape := ⟨1, ![256]⟩
abbrev S_ : Shape := ⟨0, ![]⟩
abbrev S512 : Shape := ⟨1, ![512]⟩
abbrev S256x1 : Shape := ⟨2, ![256, 1]⟩
abbrev S25 : Shape := ⟨1, ![25]⟩
abbrev S1 : Shape := ⟨1, ![1]⟩
abbrev S512x1 : Shape := ⟨2, ![512, 1]⟩
abbrev S1x25 : Shape := ⟨2, ![1, 25]⟩
abbrev S512x25 : Shape := ⟨2, ![512, 25]⟩
abbrev S12800 : Shape := ⟨1, ![12800]⟩
abbrev S1x12800 : Shape := ⟨2, ![1, 12800]⟩
abbrev S32x12800 : Shape := ⟨2, ![32, 12800]⟩
abbrev S409600 : Shape := ⟨1, ![409600]⟩
abbrev S409600x1 : Shape := ⟨2, ![409600, 1]⟩
abbrev S409600x128 : Shape := ⟨2, ![409600, 128]⟩
abbrev S8192x128 : Shape := ⟨2, ![8192, 128]⟩
abbrev S8192x1 : Shape := ⟨2, ![8192, 1]⟩
abbrev S8192x64 : Shape := ⟨2, ![8192, 64]⟩

abbrev nBuf : Space → Nat
  | .hbm => 37
  | .vmem => 8
  | .smem => 0
  | _ => 0

abbrev bufTy : (tb : Table) → Fin (tcTables nBuf tb) → BufTy
  | .hbm, ⟨0, _⟩ => ⟨S32x512x25x128, .f32⟩
  | .hbm, ⟨1, _⟩ => ⟨S64x128, .f32⟩
  | .hbm, ⟨2, _⟩ => ⟨S64x128, .f32⟩
  | .hbm, ⟨3, _⟩ => ⟨S256, .i32⟩
  | .hbm, ⟨4, _⟩ => ⟨S256, .i32⟩
  | .hbm, ⟨5, _⟩ => ⟨S_, .f32⟩
  | .hbm, ⟨6, _⟩ => ⟨S512, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S_, .f32⟩
  | .hbm, ⟨16, _⟩ => ⟨S256, .f32⟩
  | .hbm, ⟨17, _⟩ => ⟨S512, .f32⟩
  | .hbm, ⟨18, _⟩ => ⟨S_, .f32⟩
  | .hbm, ⟨19, _⟩ => ⟨S25, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S25, .f32⟩
  | .hbm, ⟨24, _⟩ => ⟨S512x1, .f32⟩
  | .hbm, ⟨25, _⟩ => ⟨S1x25, .f32⟩
  | .hbm, ⟨26, _⟩ => ⟨S512x25, .f32⟩
  | .hbm, ⟨27, _⟩ => ⟨S512x25, .f32⟩
  | .hbm, ⟨28, _⟩ => ⟨S512x25, .f32⟩
  | .hbm, ⟨29, _⟩ => ⟨S12800, .f32⟩
  | .hbm, ⟨30, _⟩ => ⟨S1x12800, .f32⟩
  | .hbm, ⟨31, _⟩ => ⟨S32x12800, .f32⟩
  | .hbm, ⟨32, _⟩ => ⟨S409600, .f32⟩
  | .hbm, ⟨33, _⟩ => ⟨S409600x1, .f32⟩
  | .hbm, ⟨34, _⟩ => ⟨S409600x128, .f32⟩
  | .hbm, ⟨35, _⟩ => ⟨S409600x128, .f32⟩
  | .hbm, ⟨36, _⟩ => ⟨S32x512x25x128, .f32⟩
  | .local _ .vmem, ⟨0, _⟩ => ⟨S8192x128, .f32⟩
  | .local _ .vmem, ⟨1, _⟩ => ⟨S8192x128, .f32⟩
  | .local _ .vmem, ⟨2, _⟩ => ⟨S64x128, .f32⟩
  | .local _ .vmem, ⟨3, _⟩ => ⟨S64x128, .f32⟩
  | .local _ .vmem, ⟨4, _⟩ => ⟨S8192x1, .f32⟩
  | .local _ .vmem, ⟨5, _⟩ => ⟨S8192x1, .f32⟩
  | .local _ .vmem, ⟨6, _⟩ => ⟨S8192x128, .f32⟩
  | .local _ .vmem, ⟨7, _⟩ => ⟨S8192x128, .f32⟩
  | _, _ => ⟨S32x512x25x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512 : S_.BroadcastsInDim S512 (![] : Fin 0 → Fin S512.rank)
  bcast_S_S256 : S_.BroadcastsInDim S256 (![] : Fin 0 → Fin S256.rank)
  bcast_S256_S256x1_0 : S256.BroadcastsInDim S256x1 (![0] : Fin 1 → Fin S256x1.rank)
  bcast_S_S25 : S_.BroadcastsInDim S25 (![] : Fin 0 → Fin S25.rank)
  bcast_S_S1 : S_.BroadcastsInDim S1 (![] : Fin 0 → Fin S1.rank)
  bcast_S512_S512x1_0 : S512.BroadcastsInDim S512x1 (![0] : Fin 1 → Fin S512x1.rank)
  bcast_S25_S1x25_1 : S25.BroadcastsInDim S1x25 (![1] : Fin 1 → Fin S1x25.rank)
  bcast_S512x1_S512x25_0_1 : S512x1.BroadcastsInDim S512x25 (![0, 1] : Fin 2 → Fin S512x25.rank)
  bcast_S1x25_S512x25_0_1 : S1x25.BroadcastsInDim S512x25 (![0, 1] : Fin 2 → Fin S512x25.rank)
  shapeCasts_S512x25_S12800 : S512x25.ShapeCasts S12800
  shapeCasts_S12800_S1x12800 : S12800.ShapeCasts S1x12800
  bcast_S1x12800_S32x12800_0_1 : S1x12800.BroadcastsInDim S32x12800 (![0, 1] : Fin 2 → Fin S32x12800.rank)
  shapeCasts_S32x12800_S409600 : S32x12800.ShapeCasts S409600
  shapeCasts_S409600_S409600x1 : S409600.ShapeCasts S409600x1
  shapeCasts_S32x512x25x128_S409600x128 : S32x512x25x128.ShapeCasts S409600x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  natLt_1_32 : 1 < 32
  broadcasts_S8192x1_S8192x64 : S8192x1.Broadcasts S8192x64
  shapeCasts_S409600x128_S32x512x25x128 : S409600x128.ShapeCasts S32x512x25x128
  scatter_S512_S256x1_S256_n_0_0_1_wf : ScatterDims.WF S512 S256x1 S256 [] [0] [0] 1
  scatter_S25_S1_S__n_0_0_0_wf : ScatterDims.WF S25 S1 S_ [] [0] [0] 0
  dot_S8192x128_S64x128_S8192x64_1_1_0_0_n_n_wf : DotDims.WF S8192x128 S64x128 S8192x64 [1] [1] [0] [0] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S409600x128.size a
  hwx0_0 : ∀ i : grid0.Coords, EltTy.bits .f32 = 32 ∨ (Rect.block (s := S409600x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x1.size a ≤ S409600x1.size a
  hwx0_3 : ∀ i : grid0.Coords, EltTy.bits .f32 = 32 ∨ (Rect.block (s := S409600x1) S8192x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S409600x128.size a
  hwx0_4 : ∀ i : grid0.Coords, EltTy.bits .f32 = 32 ∨ (Rect.block (s := S409600x128) S8192x128.size (cc0_transform_4 i) (hinb0_4 i)).WholeWords (EltTy.packing .f32)

variable [Facts₀]

def scatter_S512_S256x1_S256_n_0_0_1 : ScatterDims S512 S256x1 S256 where
  updateWindowDims := []
  insertedWindowDims := [0]
  scatterDimsToOperandDims := [0]
  indexVectorDim := 1
  wf := scatter_S512_S256x1_S256_n_0_0_1_wf
def scatter_S25_S1_S__n_0_0_0 : ScatterDims S25 S1 S_ where
  updateWindowDims := []
  insertedWindowDims := [0]
  scatterDimsToOperandDims := [0]
  indexVectorDim := 0
  wf := scatter_S25_S1_S__n_0_0_0_wf
def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_v22) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S8192x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x25x128 : Shape := ⟨4, ![32, 512, 25, 128]⟩
abbrev S64x128 : Shape := ⟨2, ![64, 128]⟩
abbrev S256 : Shape := ⟨1, ![256]⟩
abbrev S_ : Shape := ⟨0, ![]⟩
abbrev S512 : Shape := ⟨1, ![512]⟩
abbrev S256x1 : Shape := ⟨2, ![256, 1]⟩
abbrev S25 : Shape := ⟨1, ![25]⟩
abbrev S1 : Shape := ⟨1, ![1]⟩
abbrev S512x1 : Shape := ⟨2, ![512, 1]⟩
abbrev S1x25 : Shape := ⟨2, ![1, 25]⟩
abbrev S512x25 : Shape := ⟨2, ![512, 25]⟩
abbrev S1x512x25x1 : Shape := ⟨4, ![1, 512, 25, 1]⟩
abbrev S32x512x25x64 : Shape := ⟨4, ![32, 512, 25, 64]⟩

abbrev nBuf : Space → Nat
  | .hbm => 69
  | .vmem => 0
  | .smem => 0
  | _ => 0

abbrev bufTy : (tb : Table) → Fin (tcTables nBuf tb) → BufTy
  | .hbm, ⟨0, _⟩ => ⟨S32x512x25x128, .f32⟩
  | .hbm, ⟨1, _⟩ => ⟨S64x128, .f32⟩
  | .hbm, ⟨2, _⟩ => ⟨S64x128, .f32⟩
  | .hbm, ⟨3, _⟩ => ⟨S256, .i32⟩
  | .hbm, ⟨4, _⟩ => ⟨S256, .i32⟩
  | .hbm, ⟨5, _⟩ => ⟨S_, .f32⟩
  | .hbm, ⟨6, _⟩ => ⟨S512, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S_, .f32⟩
  | .hbm, ⟨16, _⟩ => ⟨S256, .f32⟩
  | .hbm, ⟨17, _⟩ => ⟨S512, .f32⟩
  | .hbm, ⟨18, _⟩ => ⟨S_, .f32⟩
  | .hbm, ⟨19, _⟩ => ⟨S25, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S25, .f32⟩
  | .hbm, ⟨24, _⟩ => ⟨S512x1, .f32⟩
  | .hbm, ⟨25, _⟩ => ⟨S1x25, .f32⟩
  | .hbm, ⟨26, _⟩ => ⟨S512x25, .f32⟩
  | .hbm, ⟨27, _⟩ => ⟨S512x25, .f32⟩
  | .hbm, ⟨28, _⟩ => ⟨S512x25, .f32⟩
  | .hbm, ⟨29, _⟩ => ⟨S1x512x25x1, .f32⟩
  | .hbm, ⟨30, _⟩ => ⟨S32x512x25x64, .f32⟩
  | .hbm, ⟨31, _⟩ => ⟨S32x512x25x64, .f32⟩
  | .hbm, ⟨32, _⟩ => ⟨S32x512x25x64, .f32⟩
  | .hbm, ⟨33, _⟩ => ⟨S_, .f32⟩
  | .hbm, ⟨34, _⟩ => ⟨S32x512x25x64, .f32⟩
  | .hbm, ⟨35, _⟩ => ⟨S32x512x25x64, .f32⟩
  | .hbm, ⟨36, _⟩ => ⟨S_, .f32⟩
  | .hbm, ⟨37, _⟩ => ⟨S32x512x25x64, .f32⟩
  | .hbm, ⟨38, _⟩ => ⟨S32x512x25x64, .f32⟩
  | .hbm, ⟨39, _⟩ => ⟨S_, .f32⟩
  | .hbm, ⟨40, _⟩ => ⟨S32x512x25x64, .f32⟩
  | .hbm, ⟨41, _⟩ => ⟨S32x512x25x64, .i1⟩
  | .hbm, ⟨42, _⟩ => ⟨S32x512x25x64, .f32⟩
  | .hbm, ⟨43, _⟩ => ⟨S32x512x25x64, .f32⟩
  | .hbm, ⟨44, _⟩ => ⟨S32x512x25x64, .f32⟩
  | .hbm, ⟨45, _⟩ => ⟨S32x512x25x64, .f32⟩
  | .hbm, ⟨46, _⟩ => ⟨S32x512x25x128, .f32⟩
  | .hbm, ⟨47, _⟩ => ⟨S32x512x25x128, .f32⟩
  | .hbm, ⟨48, _⟩ => ⟨S32x512x25x64, .f32⟩
  | .hbm, ⟨49, _⟩ => ⟨S32x512x25x64, .f32⟩
  | .hbm, ⟨50, _⟩ => ⟨S32x512x25x64, .f32⟩
  | .hbm, ⟨51, _⟩ => ⟨S_, .f32⟩
  | .hbm, ⟨52, _⟩ => ⟨S32x512x25x64, .f32⟩
  | .hbm, ⟨53, _⟩ => ⟨S32x512x25x64, .f32⟩
  | .hbm, ⟨54, _⟩ => ⟨S_, .f32⟩
  | .hbm, ⟨55, _⟩ => ⟨S32x512x25x64, .f32⟩
  | .hbm, ⟨56, _⟩ => ⟨S32x512x25x64, .f32⟩
  | .hbm, ⟨57, _⟩ => ⟨S_, .f32⟩
  | .hbm, ⟨58, _⟩ => ⟨S32x512x25x64, .f32⟩
  | .hbm, ⟨59, _⟩ => ⟨S32x512x25x64, .i1⟩
  | .hbm, ⟨60, _⟩ => ⟨S32x512x25x64, .f32⟩
  | .hbm, ⟨61, _⟩ => ⟨S32x512x25x64, .f32⟩
  | .hbm, ⟨62, _⟩ => ⟨S_, .f32⟩
  | .hbm, ⟨63, _⟩ => ⟨S1x512x25x1, .f32⟩
  | .hbm, ⟨64, _⟩ => ⟨S1x512x25x1, .f32⟩
  | .hbm, ⟨65, _⟩ => ⟨S32x512x25x64, .f32⟩
  | .hbm, ⟨66, _⟩ => ⟨S32x512x25x64, .f32⟩
  | .hbm, ⟨67, _⟩ => ⟨S32x512x25x128, .f32⟩
  | .hbm, ⟨68, _⟩ => ⟨S32x512x25x128, .f32⟩
  | _, _ => ⟨S32x512x25x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S256 : S_.BroadcastsInDim S256 (![] : Fin 0 → Fin S256.rank)
  bcast_S256_S256x1_0 : S256.BroadcastsInDim S256x1 (![0] : Fin 1 → Fin S256x1.rank)
  bcast_S_S25 : S_.BroadcastsInDim S25 (![] : Fin 0 → Fin S25.rank)
  bcast_S_S1 : S_.BroadcastsInDim S1 (![] : Fin 0 → Fin S1.rank)
  bcast_S512_S512x1_0 : S512.BroadcastsInDim S512x1 (![0] : Fin 1 → Fin S512x1.rank)
  bcast_S25_S1x25_1 : S25.BroadcastsInDim S1x25 (![1] : Fin 1 → Fin S1x25.rank)
  bcast_S512x1_S512x25_0_1 : S512x1.BroadcastsInDim S512x25 (![0, 1] : Fin 2 → Fin S512x25.rank)
  bcast_S1x25_S512x25_0_1 : S1x25.BroadcastsInDim S512x25 (![0, 1] : Fin 2 → Fin S512x25.rank)
  bcast_S512x25_S1x512x25x1_1_2 : S512x25.BroadcastsInDim S1x512x25x1 (![1, 2] : Fin 2 → Fin S1x512x25x1.rank)
  bcast_S_S32x512x25x64 : S_.BroadcastsInDim S32x512x25x64 (![] : Fin 0 → Fin S32x512x25x64.rank)
  bcast_S1x512x25x1_S32x512x25x64_0_1_2_3 : S1x512x25x1.BroadcastsInDim S32x512x25x64 (![0, 1, 2, 3] : Fin 4 → Fin S32x512x25x64.rank)
  bcast_S_S1x512x25x1 : S_.BroadcastsInDim S1x512x25x1 (![] : Fin 0 → Fin S1x512x25x1.rank)
  scatter_S512_S256x1_S256_n_0_0_1_wf : ScatterDims.WF S512 S256x1 S256 [] [0] [0] 1
  scatter_S25_S1_S__n_0_0_0_wf : ScatterDims.WF S25 S1 S_ [] [0] [0] 0
  dot_S32x512x25x128_S64x128_S32x512x25x64_3_1_012_0_n_n_wf : DotDims.WF S32x512x25x128 S64x128 S32x512x25x64 [3] [1] [0, 1, 2] [0] [] []
  dot_S32x512x25x64_S64x128_S32x512x25x128_3_0_012_1_n_n_wf : DotDims.WF S32x512x25x64 S64x128 S32x512x25x128 [3] [0] [0, 1, 2] [1] [] []

variable [Facts₀]

def scatter_S512_S256x1_S256_n_0_0_1 : ScatterDims S512 S256x1 S256 where
  updateWindowDims := []
  insertedWindowDims := [0]
  scatterDimsToOperandDims := [0]
  indexVectorDim := 1
  wf := scatter_S512_S256x1_S256_n_0_0_1_wf
def scatter_S25_S1_S__n_0_0_0 : ScatterDims S25 S1 S_ where
  updateWindowDims := []
  insertedWindowDims := [0]
  scatterDimsToOperandDims := [0]
  indexVectorDim := 0
  wf := scatter_S25_S1_S__n_0_0_0_wf
def dot_S32x512x25x128_S64x128_S32x512x25x64_3_1_012_0_n_n : DotDims S32x512x25x128 S64x128 S32x512x25x64 where
  lhsContracting := [3]
  rhsContracting := [1]
  lhsNonContracting := [0, 1, 2]
  rhsNonContracting := [0]
  lhsBatch := []
  rhsBatch := []
  wf := dot_S32x512x25x128_S64x128_S32x512x25x64_3_1_012_0_n_n_wf
def dot_S32x512x25x64_S64x128_S32x512x25x128_3_0_012_1_n_n : DotDims S32x512x25x64 S64x128 S32x512x25x128 where
  lhsContracting := [3]
  rhsContracting := [0]
  lhsNonContracting := [0, 1, 2]
  rhsNonContracting := [1]
  lhsBatch := []
  rhsBatch := []
  wf := dot_S32x512x25x64_S64x128_S32x512x25x128_3_0_012_1_n_n_wf

class Facts : Prop extends Facts₀ where

variable [Facts]
-- ==== Proof.Spec.lean ====
/-
  The specification both programs meet, one output row at a time, over the extended reals.

  A row `x : Fin 128 → EReal` of the patches and two prompt tables `u m : [64,128]` give, for each prompt `k`, a score
  `σ(∑ d, x d · w[k,d])` (`σ` the logistic function), kept only when it exceeds one half (`gate`). The row's own mask
  value `kp` (zero on masked token or time positions, one elsewhere) scales the unmasked-prompt scores by `kp` and the
  masked-prompt scores by `1 − kp`; each scaled score vector is projected back through its table and added onto the row:
  `rowFn x u m kp dd = (x dd + ∑ k, (gate(σ(x·u_k)) · kp) · u[k,dd]) + ∑ k, (gate(σ(x·m_k)) · (1 − kp)) · m[k,dd]`.
  Nothing here needs finiteness: both programs compute this very expression, sums and products in this order.
-/
import Idealize.ShloMosaic.PureOps.Ideal
import Idealize.ShloMosaic.PureOps.Ideal.Laws
import Idealize.ShloMosaic.Lib.ValueIdx

noncomputable section

open scoped BigOperators

namespace Cert.Prompt

open Idealize.ShloMosaic Idealize.ShloMosaic.ValueIdx

/-- The shape of a prompt table, 64 prompts of width 128. -/
abbrev T64x128 : Shape := ⟨2, ![64, 128]⟩

/-- The float pattern of one half, the score threshold, as an extended real. -/
abbrev half : EReal := Ideal.ofBits .f32 0x3F000000#32
/-- The float pattern of one, as an extended real (kept as a pattern: both programs subtract the mask from it). -/
abbrev one : EReal := Ideal.ofBits .f32 0x3F800000#32

/-- A one-bit word as the number 0 or 1. -/
def ind (b : BitVec 1) : EReal := ((b.toNat : ℝ) : EReal)

/-- A score is kept when it exceeds one half and dropped to zero otherwise. -/
def gate (s : EReal) : EReal := s * ind (Ideal.cmp .ogt s half)

/-- The gated logistic score of row `x` against prompt `k` of table `w`. -/
def score (x : Fin 128 → EReal) (w : T64x128.Idx → EReal) (k : Fin 64) : EReal :=
  gate (Ideal.logistic (∑ d : Fin 128, x d * w (ix2 k d)))

/-- One output row: the row plus the two masked back-projections. -/
def rowFn (x : Fin 128 → EReal) (u m : T64x128.Idx → EReal) (kp : EReal) (dd : Fin 128) : EReal :=
  (x dd + ∑ k : Fin 64, (score x u k * kp) * u (ix2 k dd))
    + ∑ k : Fin 64, (score x m k * (one - kp)) * m (ix2 k dd)

/-- The pattern `0x3F800000` is the number one. -/
theorem ofBits_one_f32 : Ideal.ofBits .f32 0x3F800000#32 = 1 := by
  simp [Ideal.ofBits, Ideal.ieee, -EReal.coe_mul]; norm_num

/-- The host spells the logistic function out as `1 / (1 + e^(−s))` with the pattern of one in both places. -/
theorem logistic_expanded (s : EReal) :
    Ideal.div one (one + Ideal.exp (-s)) = Ideal.logistic s := by
  show Ideal.div (Ideal.ofBits .f32 0x3F800000#32) (Ideal.ofBits .f32 0x3F800000#32 + Ideal.exp (-s)) = _
  rw [ofBits_one_f32]; rfl

/-- A one-bit word widened to 32 bits and read signed is the bit: the kernel's way of turning a comparison into 0 or 1. -/
theorem widened_bit (b : BitVec 1) : (((b.setWidth 32).toInt : ℝ) : EReal) = ind b := by
  have h : ∀ b : BitVec 1, (b.setWidth 32).toInt = (b.toNat : ℤ) := by decide
  unfold ind
  rw [h b]
  norm_cast

end Cert.Prompt

end
-- ==== Proof.Payload.lean ====
/-
  The kernel body's one stored value, read at one entry.

  The body loads a block `x` of 8192 patch rows, the two prompt tables `u`, `m` and the block's column `kp` of mask
  values, and stores `x + (gate(σ(x uᵀ)) · kp) u + (gate(σ(x mᵀ)) · (1 − kp)) m`. Changes of float format are the
  identity over the extended reals, a matrix product into a zero accumulator is the plain sum over the contracted axis,
  and a comparison widened to a word and read back as a float is the 0/1 indicator: so entry (r, dd) of the stored value
  is `rowFn` of row `r` of `x`, the tables and `kp r`.
-/
import proofs.«104649_j56719338111252_1_alg».proof.Proof.Gen.KernelIdeal.Skeleton
import proofs.«104649_j56719338111252_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Prompt.Kernel

open Idealize.ShloMosaic Idealize.ShloMosaic.ValueIdx Cert.KernelIdeal Cert.KernelIdeal.Gen Cert.Prompt

/-! ## The score product: a block row against a table row, contracted over the 128 features -/

/-- The left operand's row coordinate is the result's row. -/
theorem lhs_score_0 (i : S8192x64.Idx) (q : dot_S8192x128_S64x128_S8192x64_1_1_0_0_n_n.contr.Idx) :
    (dot_S8192x128_S64x128_S8192x64_1_1_0_0_n_n.lhsIdx i q 0).val = (i 0).val := by
  unfold DotDims.lhsIdx
  rw [dif_neg (show ¬(0 : Fin S8192x128.rank) ∈ dot_S8192x128_S64x128_S8192x64_1_1_0_0_n_n.lhsBatch by decide), dif_pos (show (0 : Fin S8192x128.rank) ∈ dot_S8192x128_S64x128_S8192x64_1_1_0_0_n_n.lhsNonContracting by decide)]
  rfl
/-- The left operand's feature coordinate is the contraction position. -/
theorem lhs_score_1 (i : S8192x64.Idx) (q : dot_S8192x128_S64x128_S8192x64_1_1_0_0_n_n.contr.Idx) :
    (dot_S8192x128_S64x128_S8192x64_1_1_0_0_n_n.lhsIdx i q 1).val = (q ⟨0, by decide⟩).val :=
  dot_S8192x128_S64x128_S8192x64_1_1_0_0_n_n.lhsIdx_val_of_single rfl i q
/-- The table's prompt coordinate is the result's column. -/
theorem rhs_score_0 (i : S8192x64.Idx) (q : dot_S8192x128_S64x128_S8192x64_1_1_0_0_n_n.contr.Idx) :
    (dot_S8192x128_S64x128_S8192x64_1_1_0_0_n_n.rhsIdx i q 0).val = (i 1).val := by
  unfold DotDims.rhsIdx
  rw [dif_neg (show ¬(0 : Fin S64x128.rank) ∈ dot_S8192x128_S64x128_S8192x64_1_1_0_0_n_n.rhsBatch by decide), dif_pos (show (0 : Fin S64x128.rank) ∈ dot_S8192x128_S64x128_S8192x64_1_1_0_0_n_n.rhsNonContracting by decide)]
  rfl
/-- The table's feature coordinate is the contraction position. -/
theorem rhs_score_1 (i : S8192x64.Idx) (q : dot_S8192x128_S64x128_S8192x64_1_1_0_0_n_n.contr.Idx) :
    (dot_S8192x128_S64x128_S8192x64_1_1_0_0_n_n.rhsIdx i q 1).val = (q ⟨0, by decide⟩).val :=
  dot_S8192x128_S64x128_S8192x64_1_1_0_0_n_n.rhsIdx_val_of_single rfl i q

/-- Entry (r, k) of the score product into a zero accumulator is the inner product of row `r` of the block with row `k`
    of the table. -/
theorem score_matmul_apply (a : FVec Ideal S8192x128 .bf16) (w : FVec Ideal S64x128 .bf16) (r : Fin 8192) (k : Fin 64) :
    matmul dot_S8192x128_S64x128_S8192x64_1_1_0_0_n_n none a w (constant (F := Ideal) S8192x64 .f32 0x00000000#32) (ix2 r k)
      = ∑ d : Fin 128, a (ix2 r d) * w (ix2 k d) := by
  refine (Ideal.matmul_constant_zero_apply dot_S8192x128_S64x128_S8192x64_1_1_0_0_n_n none a w (ix2 r k)).trans ?_
  rw [← Equiv.sum_comp (contrEquiv1 dot_S8192x128_S64x128_S8192x64_1_1_0_0_n_n 128 rfl rfl).symm]
  refine Finset.sum_congr rfl fun d _ => ?_
  have hk := contrEquiv1_symm_val dot_S8192x128_S64x128_S8192x64_1_1_0_0_n_n 128 rfl rfl d
  have el : dot_S8192x128_S64x128_S8192x64_1_1_0_0_n_n.lhsIdx (ix2 r k) ((contrEquiv1 dot_S8192x128_S64x128_S8192x64_1_1_0_0_n_n 128 rfl rfl).symm d) = ix2 r d := funext fun ax => Fin.ext (by
    match ax with
    | ⟨0, _⟩ => exact lhs_score_0 _ _
    | ⟨1, _⟩ => exact (lhs_score_1 _ _).trans hk)
  have er : dot_S8192x128_S64x128_S8192x64_1_1_0_0_n_n.rhsIdx (ix2 r k) ((contrEquiv1 dot_S8192x128_S64x128_S8192x64_1_1_0_0_n_n 128 rfl rfl).symm d) = ix2 k d := funext fun ax => Fin.ext (by
    match ax with
    | ⟨0, _⟩ => exact rhs_score_0 _ _
    | ⟨1, _⟩ => exact (rhs_score_1 _ _).trans hk)
  rw [el, er]

/-! ## The back-projection: a row of scaled scores against a table column, contracted over the 64 prompts -/

/-- The left operand's row coordinate is the result's row. -/
theorem lhs_proj_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
/-- The left operand's prompt coordinate is the contraction position. -/
theorem lhs_proj_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
/-- The table's prompt coordinate is the contraction position. -/
theorem rhs_proj_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
/-- The table's feature coordinate is the result's column. -/
theorem rhs_proj_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- Entry (r, dd) of the back-projection into a zero accumulator is the sum over the prompts of the row's scaled score
    times the table's entry. -/
theorem proj_matmul_apply (g : FVec Ideal S8192x64 .bf16) (w : FVec Ideal S64x128 .bf16) (r : Fin 8192) (dd : Fin 128) :
    matmul dot_S8192x64_S64x128_S8192x128_1_0_0_1_n_n none g w (constant (F := Ideal) S8192x128 .f32 0x00000000#32) (ix2 r dd)
      = ∑ k : Fin 64, g (ix2 r k) * w (ix2 k dd) := by
  refine (Ideal.matmul_constant_zero_apply dot_S8192x64_S64x128_S8192x128_1_0_0_1_n_n none g w (ix2 r dd)).trans ?_
  rw [← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 r dd) ((contrEquiv1 dot_S8192x64_S64x128_S8192x128_1_0_0_1_n_n 64 rfl rfl).symm k) = ix2 r k := funext fun ax => Fin.ext (by
    match ax with
    | ⟨0, _⟩ => exact lhs_proj_0 _ _
    | ⟨1, _⟩ => exact (lhs_proj_1 _ _).trans hk)
  have er : dot_S8192x64_S64x128_S8192x128_1_0_0_1_n_n.rhsIdx (ix2 r dd) ((contrEquiv1 dot_S8192x64_S64x128_S8192x128_1_0_0_1_n_n 64 rfl rfl).symm k) = ix2 k dd := funext fun ax => Fin.ext (by
    match ax with
    | ⟨0, _⟩ => exact (rhs_proj_0 _ _).trans hk
    | ⟨1, _⟩ => exact rhs_proj_1 _ _)
  rw [el, er]

/-! ## The pointwise pieces -/

/-- The mask column spread over the 64 prompts reads the row's own mask value. -/
theorem column_apply {α : Type} (v : S8192x1.Idx → α) (h : S8192x1.Broadcasts S8192x64) (r : Fin 8192) (k : Fin 64) :
    broadcastTo S8192x64 v h (ix2 r k) = v (ix2 r (0 : Fin 1)) :=
  broadcastTo_apply v h (ix2 r k) (ix2 r (0 : Fin 1)) (fun ax => match ax with
    | ⟨0, _⟩ => by show r.val = if (8192 : Nat) = 1 then 0 else r.val; rw [if_neg (by decide)]
    | ⟨1, _⟩ => by show 0 = if (1 : Nat) = 1 then 0 else k.val; rw [if_pos rfl])

/-- A score times its comparison against one half, widened to a word and read back as a float, is the gated score. -/
theorem gated_apply (s : FVec Ideal S8192x64 .f32) (h : 1 < 32) (i : S8192x64.Idx) :
    mulf s (sitofp .f32 (extui 32 (cmpf .ogt s (broadcast S8192x64 (Scalar.ofBits (F := Ideal) .f32 0x3F000000#32))) h)) i
      = gate (s i) := by
  unfold gate
  exact congrArg (fun t => s i * t) (widened_bit _)

/-- The logistic of the score product at (r, k) is the logistic of the inner product. -/
theorem logistic_matmul_apply (a : FVec Ideal S8192x128 .bf16) (w : FVec Ideal S64x128 .bf16) (r : Fin 8192) (k : Fin 64) :
    logistic (matmul dot_S8192x128_S64x128_S8192x64_1_1_0_0_n_n none a w (constant (F := Ideal) S8192x64 .f32 0x00000000#32)) (ix2 r k)
      = Ideal.logistic (∑ d : Fin 128, a (ix2 r d) * w (ix2 k d)) :=
  congrArg Ideal.logistic (score_matmul_apply a w r k)

/-! ## The stored value at an entry -/

/-- Entry (r, dd) of the value the body stores is the specification's row function of row `r` of the patch block, the two
    tables, and the mask value of row `r`. -/
theorem payload_apply (x : Vec Ideal S8192x128 .f32) (kp : Vec Ideal S8192x1 .f32) (u m : Vec Ideal S64x128 .f32)
    (r : Fin 8192) (dd : Fin 128) :
    k0_pay1 (F := Ideal) x kp u m (ix2 r dd) = rowFn (fun d => x (ix2 r d)) u m (kp (ix2 r (0 : Fin 1))) dd := by
  unfold k0_pay1 rowFn
  -- the two casts to the same shape are the identity
  have hx : shapeCast S8192x128 x Facts₀.shapeCasts_S8192x128_S8192x128 = x := shapeCast_self x _
  have hkp : shapeCast S8192x1 kp Facts₀.shapeCasts_S8192x1_S8192x1 = kp := shapeCast_self kp _
  rw [hx, hkp]
  -- the stored value is (x + first back-projection) + second back-projection, entry by entry
  refine (addf_apply _ _ _).trans (congrArg₂ (fun a b : EReal => a + b)
    ((addf_apply _ _ _).trans (congrArg₂ (fun a b : EReal => a + b) rfl ?_)) ?_)
  · -- the unmasked-prompt table: scores scaled by the mask value
    refine (proj_matmul_apply _ _ r dd).trans (Finset.sum_congr rfl fun k _ => ?_)
    refine congrArg₂ (fun a b : EReal => a * b) ?_ rfl
    refine (truncf_apply (φ := .f32) (ψ := .bf16) _ _ _).trans ((mulf_apply (φ := .f32) _ _ _).trans
      (congrArg₂ (fun a b : EReal => a * b) ?_ (column_apply _ _ r k)))
    exact (gated_apply _ _ _).trans (congrArg gate (logistic_matmul_apply _ _ r k))
  · -- the masked-prompt table: scores scaled by one minus the mask value
    refine (proj_matmul_apply _ _ r dd).trans (Finset.sum_congr rfl fun k _ => ?_)
    refine congrArg₂ (fun a b : EReal => a * b) ?_ rfl
    refine (truncf_apply (φ := .f32) (ψ := .bf16) _ _ _).trans ((mulf_apply (φ := .f32) _ _ _).trans
      (congrArg₂ (fun a b : EReal => a * b) ?_ (column_apply _ _ r k)))
    exact (gated_apply _ _ _).trans (congrArg gate (logistic_matmul_apply _ _ r k))

end Cert.Prompt.Kernel

end
-- ==== Proof.KernelArray.lean ====
/-
  The kernel's output array after the pipeline has run, as one function of the arrays the region finds.

  The region sees the patches flattened to 409600 rows of width 128, the two prompt tables whole, and the mask as a
  column of 409600 values. Grid point `t` works on rows `8192·t … 8192·t + 8191`: its output block is the specification's
  row function applied row by row (`block_eq`, from the body's stored value), and since the fifty blocks tile the array,
  the array ends holding that function of the flat patches, the tables and the flat mask (`flat_final`).
-/
import proofs.«104649_j56719338111252_1_alg».proof.Proof.Gen.KernelIdeal.Frame
import proofs.«104649_j56719338111252_1_alg».proof.Proof.Payload
import Idealize.ShloMosaic.Lib.Pipeline.Value
import Idealize.ShloMosaic.Lib.ValueIdx
import Idealize.ShloMosaic.Lib.StableHlo.Run

set_option maxRecDepth 16384

noncomputable section

open scoped BigOperators

namespace Cert.Prompt.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Prompt

variable (m : (ℓ : Loc nD τ sig) → Buf (Elt Ideal) ℓ) (ρ : Dev nD → PrngReg)

theorem zero_offsets : (![0, 0] : Fin 2 → Nat) = fun _ => 0 := funext fun a => by fin_cases a <;> rfl

/-- The flat result: row `j 0` of the flat patches through the specification's row function, with that row's mask value. -/
def flatFn (X : S409600x128.Idx → EReal) (U M : S64x128.Idx → EReal) (KP : S409600x1.Idx → EReal) :
    S409600x128.Idx → EReal :=
  fun j => rowFn (fun d => X (ix2 (j 0) d)) U M (KP (ix2 (j 0) (0 : Fin 1))) (j 1)

/-- What the body leaves in the output's staging buffer, from its four input blocks: the row function, row by row. -/
theorem block_eq (x0 : Vec Ideal S8192x128 .f32) (x1 x2 : Vec Ideal S64x128 .f32) (x3 : Vec Ideal S8192x1 .f32) :
    out0_4 (F := Ideal) x0 x1 x2 x3
      = fun j : S8192x128.Idx => rowFn (fun d => x0 (ix2 (j 0) d)) x1 x2 (x3 (ix2 (j 0) (0 : Fin 1))) (j 1) := by
  unfold out0_4
  rw [View.canon_unit_zero zero_offsets]
  simp only [View.ld_unit_zero (S := S8192x128) zero_offsets, View.ld_unit_zero (S := S8192x1) zero_offsets,
    View.ld_unit_zero (S := S64x128) zero_offsets]
  funext j
  obtain ⟨r, dd, rfl⟩ : ∃ (r : Fin 8192) (dd : Fin 128), j = ix2 r dd := ⟨j 0, j 1, eq_ix2 j⟩
  exact payload_apply x0 x3 x1 x2 r dd

/-- The printed index maps, decided over the fifty grid points: the patch, mask and output windows are at block `t` of
    their row axis and block 0 of their column axis; the two table windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The patch window's block at point `t`, read at (r, d), is the flat patches at row `8192·t + r`, column `d`. -/
theorem blk_patches (c : Dev nD) (t : Fin cfg0.N) (y : S8192x128.Idx) (k : S409600x128.Idx)
    (hk0 : (k 0).val = t.val * 8192 + (y 0).val) (hk1 : (k 1).val = (y 1).val) :
    (iblk m c 0 t : Vec Ideal S8192x128 .f32) y = (V m c main_v22 : S409600x128.Idx → EReal) k := by
  obtain ⟨e0, e1, -⟩ := idx_facts t
  unfold iblk
  rw [View.read_apply]
  show V m c main_v22 _ = V m c main_v22 _
  congr 1
  funext a
  apply Fin.ext
  match a with
  | ⟨0, _⟩ => show win0_0.index t 0 * 8192 + 1 * (y 0).val = (k 0).val; rw [e0, hk0]; omega
  | ⟨1, _⟩ => show win0_0.index t 1 * 128 + 1 * (y 1).val = (k 1).val; rw [e1, hk1]; omega

/-- The mask window's block at point `t`, read at (r, 0), is the flat mask at row `8192·t + r`. -/
theorem blk_mask (c : Dev nD) (t : Fin cfg0.N) (y : S8192x1.Idx) (k : S409600x1.Idx)
    (hk0 : (k 0).val = t.val * 8192 + (y 0).val) :
    (iblk m c 3 t : Vec Ideal S8192x1 .f32) y = (V m c main_v21 : S409600x1.Idx → EReal) k := by
  obtain ⟨-, -, -, -, -, -, e0, e1, -⟩ := idx_facts t
  unfold iblk
  rw [View.read_apply]
  show V m c main_v21 _ = V m c main_v21 _
  congr 1
  funext a
  apply Fin.ext
  have hy1 : (y 1).val = 0 := by have h : (y 1).val < 1 := (y 1).isLt; omega
  have hk1 : (k 1).val = 0 := by have h : (k 1).val < 1 := (k 1).isLt; omega
  match a with
  | ⟨0, _⟩ => show win0_3.index t 0 * 8192 + 1 * (y 0).val = (k 0).val; rw [e0, hk0]; omega
  | ⟨1, _⟩ => show win0_3.index t 1 * 1 + 1 * (y 1).val = (k 1).val; rw [e1, hy1, hk1]

/-- The first table's window is the whole table at every point. -/
theorem blk_table_u (c : Dev nD) (t : Fin cfg0.N) :
    (iblk m c 1 t : Vec Ideal S64x128 .f32) = (V m c main_arg1 : S64x128.Idx → EReal) := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t 0 * 64 + 1 * (y 0).val = (y 0).val; rw [e0]; omega
  | ⟨1, _⟩ => show win0_1.index t 1 * 128 + 1 * (y 1).val = (y 1).val; rw [e1]; omega

/-- The second table's window is the whole table at every point. -/
theorem blk_table_m (c : Dev nD) (t : Fin cfg0.N) :
    (iblk m c 2 t : Vec Ideal S64x128 .f32) = (V m c main_arg2 : S64x128.Idx → EReal) := by
  obtain ⟨-, -, -, -, e0, e1, -⟩ := idx_facts t
  funext y
  unfold iblk
  rw [View.read_apply]
  show V m c main_arg2 _ = V m c main_arg2 y
  congr 1
  funext a
  apply Fin.ext
  match a with
  | ⟨0, _⟩ => show win0_2.index t 0 * 64 + 1 * (y 0).val = (y 0).val; rw [e0]; omega
  | ⟨1, _⟩ => show win0_2.index t 1 * 128 + 1 * (y 1).val = (y 1).val; rw [e1]; omega

/-- What point `t` writes back is block `t` of the flat result. -/
theorem flushed_eq (c : Dev nD) (t : Fin cfg0.N) :
    (dats m 0 c).flushed 4 t = ((cfg0.win 4).blk t).view.read (Elt Ideal)
      (flatFn (V m c main_v22) (V m c main_arg1) (V m c main_arg2) (V m c main_v21)) := by
  show (cfg0.win 4).cut (grid0.coords t) ((dats m 0 c).after 4 t) = _
  rw [after0_4]
  rw [block_eq, blk_table_u, blk_table_m]
  obtain ⟨-, -, -, -, -, -, -, -, e0, e1⟩ := idx_facts t
  funext j
  have h0 : ((((cfg0.win 4).blk t).view.emb j) 0).val = t.val * 8192 + (j 0).val := by
    show win0_4.index t 0 * 8192 + 1 * (j 0).val = _
    rw [e0]; omega
  have h1 : ((((cfg0.win 4).blk t).view.emb j) 1).val = (j 1).val := by
    show win0_4.index t 1 * 128 + 1 * (j 1).val = _
    rw [e1]; omega
  show rowFn (fun d => iblk m c 0 t (ix2 (j 0) d)) (V m c main_arg1) (V m c main_arg2) (iblk m c 3 t (ix2 (j 0) 0)) (j 1)
    = flatFn (V m c main_v22) (V m c main_arg1) (V m c main_arg2) (V m c main_v21) (((cfg0.win 4).blk t).view.emb j)
  unfold flatFn
  have hx : (fun d : Fin 128 => (iblk m c 0 t : Vec Ideal S8192x128 .f32) (ix2 (j 0) d))
      = fun d => (V m c main_v22 : S409600x128.Idx → EReal) (ix2 ((((cfg0.win 4).blk t).view.emb j) 0) d) :=
    funext fun d => blk_patches m c t _ _ h0 rfl
  have hk : (iblk m c 3 t : Vec Ideal S8192x1 .f32) (ix2 (j 0) 0)
      = (V m c main_v21 : S409600x1.Idx → EReal) (ix2 ((((cfg0.win 4).blk t).view.emb j) 0) 0) :=
    blk_mask m c t _ _ h0
  rw [hx, hk]
  exact congrArg _ (Fin.ext h1.symm)

/-- An index of the flat array is in point `t`'s block iff each coordinate is in the block's range on its axis. -/
theorem mem_blk (t : Fin cfg0.N) (i : S409600x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v23).slice (win0_4.rect t)).set ↔ _
  rw [View.set_slice_whole, Rect.mem_set_unit]
  exact Iff.rfl

/-- Row `r` of the flat array lies in the block of point `r / 8192`, and every point writes its block back. -/
theorem covered (i : S409600x128.Idx) :
    ∃ t : Fin cfg0.N, (cfg0.win 4).flush t = true ∧ i ∈ ((cfg0.win 4).blk t).view.set := by
  have hi0 : (i 0).val < 409600 := (i 0).isLt
  have hi1 : (i 1).val < 128 := (i 1).isLt
  have hN : cfg0.N = 50 := N_0
  have ht : (i 0).val / 8192 < cfg0.N := by rw [hN]; omega
  refine ⟨⟨(i 0).val / 8192, ht⟩, flush0_4 _, ?_⟩
  obtain ⟨-, -, -, -, -, -, -, -, e0, e1⟩ := idx_facts ⟨(i 0).val / 8192, ht⟩
  rw [mem_blk]
  intro a
  match a with
  | ⟨0, _⟩ =>
    show win0_4.index ⟨(i 0).val / 8192, ht⟩ (0 : Fin 2) * 8192 ≤ (i 0).val
      ∧ (i 0).val < win0_4.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_4.index ⟨(i 0).val / 8192, ht⟩ (1 : Fin 2) * 128 ≤ (i 1).val
      ∧ (i 1).val < win0_4.index ⟨(i 0).val / 8192, ht⟩ (1 : Fin 2) * 128 + 128
    rw [e1]; omega

/-- The output array after the run is the flat result of the arrays the region found. -/
theorem flat_final (c : Dev nD) :
    (dats m 0 c).arrAt 4 cfg0.N = flatFn (V m c main_v22) (V m c main_arg1) (V m c main_arg2) (V m c main_v21) :=
  (dats m 0 c).arrAt_eq_of_cover 4 _ (fun t _ => flushed_eq m c t) covered

/-! ## The host lines around the region -/

/-- Row (b, n, p) of the patches is row `(512·b + n)·25 + p` of the flat patches. -/
def flatRow (b : Fin 32) (n : Fin 512) (p : Fin 25) : Fin 409600 :=
  ⟨(b.val * 512 + n.val) * 25 + p.val, by have := b.isLt; have := n.isLt; have := p.isLt; omega⟩

/-- The flat patches are the patches re-laid row-major: entry (`flatRow b n p`, d) is entry (b, n, p, d). -/
theorem patches_entry (c : Dev nD) (b : Fin 32) (n : Fin 512) (p : Fin 25) (d : Fin 128) :
    (V m c main_v22 : S409600x128.Idx → EReal) (ix2 (flatRow b n p) d)
      = (m ((c.tc : Thread nD τ).loc main_arg0) : S32x512x25x128.Idx → EReal) (ix4 b n p d) := by
  have e : (V m c main_v22 : S409600x128.Idx → EReal)
      = shapeCast S409600x128 (m ((c.tc : Thread nD τ).loc main_arg0) : S32x512x25x128.Idx → EReal)
          shapeCasts_S32x512x25x128_S409600x128 := by
    show StableHlo.after hostOps0 (fun b => m (c, b)) (Proc.devRef .tc main_v22) = _
    after_results; rfl
  rw [e]
  refine shapeCast_apply (s := S32x512x25x128) (t := S409600x128) _ _ _ _ ?_
  show (S32x512x25x128.rowMajor (ix4 b n p d)).val = (S409600x128.rowMajor (ix2 (flatRow b n p) d)).val
  rw [Shape.rowMajor_val_four, Shape.rowMajor_val_two]
  show ((b.val * 512 + n.val) * 25 + p.val) * 128 + d.val = ((b.val * 512 + n.val) * 25 + p.val) * 128 + d.val
  rfl

/-- Entry (n, p) of the (token, time) mask is entry `25·n + p` of its row-major flattening. -/
def tokTime (n : Fin 512) (p : Fin 25) : Fin 12800 :=
  ⟨n.val * 25 + p.val, by have := n.isLt; have := p.isLt; omega⟩

/-- The (token, time) mask the host lines build from the masked token indices, as the region's entry finds it. -/
abbrev maskNP (c : Dev nD) : S512x25.Idx → EReal := V m c main_v16

/-- The flat mask is the (token, time) mask repeated for each of the 32 batch entries: row `flatRow b n p` holds entry (n, p). -/
theorem mask_entry (c : Dev nD) (b : Fin 32) (n : Fin 512) (p : Fin 25) :
    (V m c main_v21 : S409600x1.Idx → EReal) (ix2 (flatRow b n p) (0 : Fin 1)) = maskNP m c (ix2 n p) := by
  have e : (V m c main_v21 : S409600x1.Idx → EReal)
      = shapeCast S409600x1 (shapeCast S409600 (broadcastInDim S32x12800 ![0, 1] bcast_S1x12800_S32x12800_0_1
          (shapeCast S1x12800 (shapeCast S12800 (V m c main_v16 : S512x25.Idx → EReal) shapeCasts_S512x25_S12800)
            shapeCasts_S12800_S1x12800)) shapeCasts_S32x12800_S409600) shapeCasts_S409600_S409600x1 := by
    show StableHlo.after hostOps0 (fun b => m (c, b)) (Proc.devRef .tc main_v21)
      = shapeCast S409600x1 (shapeCast S409600 (broadcastInDim S32x12800 ![0, 1] bcast_S1x12800_S32x12800_0_1
          (shapeCast S1x12800 (shapeCast S12800 (StableHlo.after hostOps0 (fun b => m (c, b)) (Proc.devRef .tc main_v16)) shapeCasts_S512x25_S12800)
            shapeCasts_S12800_S1x12800)) shapeCasts_S32x12800_S409600) shapeCasts_S409600_S409600x1
    after_results; rfl
  rw [e]
  have hb := b.isLt
  have hn := n.isLt
  have hp := p.isLt
  -- the column [409600, 1] read at (r, 0) is the vector [409600] at r
  refine (shapeCast_apply (s := S409600) (t := S409600x1) _ _ (ix2 (flatRow b n p) (0 : Fin 1)) (ix1 (flatRow b n p)) ?_).trans ?_
  · show (S409600.rowMajor (ix1 (flatRow b n p))).val = (S409600x1.rowMajor (ix2 (flatRow b n p) (0 : Fin 1))).val
    rw [Shape.rowMajor_val_one, Shape.rowMajor_val_two]
    show (b.val * 512 + n.val) * 25 + p.val = ((b.val * 512 + n.val) * 25 + p.val) * 1 + 0
    omega
  -- the vector [409600] at r = 12800·b + q is the matrix [32, 12800] at (b, q)
  refine (shapeCast_apply (s := S32x12800) (t := S409600) _ _ (ix1 (flatRow b n p)) (ix2 b (tokTime n p)) ?_).trans ?_
  · show (S32x12800.rowMajor (ix2 b (tokTime n p))).val = (S409600.rowMajor (ix1 (flatRow b n p))).val
    rw [Shape.rowMajor_val_two, Shape.rowMajor_val_one]
    show b.val * 12800 + (n.val * 25 + p.val) = (b.val * 512 + n.val) * 25 + p.val
    omega
  -- every batch entry's row is the one row of the [1, 12800] matrix
  refine (broadcastInDim_apply _ _ _ (ix2 b (tokTime n p)) (ix2 (0 : Fin 1) (tokTime n p)) (fun a => ?_)).trans ?_
  · match a with
    | ⟨0, _⟩ => show 0 = if (1 : Nat) = 1 then 0 else b.val; rw [if_pos rfl]
    | ⟨1, _⟩ => show (tokTime n p).val = if (12800 : Nat) = 1 then 0 else (tokTime n p).val; rw [if_neg (by decide)]
  -- that row at q is the vector [12800] at q
  refine (shapeCast_apply (s := S12800) (t := S1x12800) _ _ (ix2 (0 : Fin 1) (tokTime n p)) (ix1 (tokTime n p)) ?_).trans ?_
  · show (S12800.rowMajor (ix1 (tokTime n p))).val = (S1x12800.rowMajor (ix2 (0 : Fin 1) (tokTime n p))).val
    rw [Shape.rowMajor_val_one, Shape.rowMajor_val_two]
    show n.val * 25 + p.val = 0 * 12800 + (n.val * 25 + p.val)
    omega
  -- and the vector [12800] at q = 25·n + p is the mask at (n, p)
  refine shapeCast_apply (s := S512x25) (t := S12800) _ _ (ix1 (tokTime n p)) (ix2 n p) ?_
  show (S512x25.rowMajor (ix2 n p)).val = (S12800.rowMajor (ix1 (tokTime n p))).val
  rw [Shape.rowMajor_val_two, Shape.rowMajor_val_one]
  show n.val * 25 + p.val = n.val * 25 + p.val
  rfl

/-- The program's result is the output array re-laid to [32, 512, 25, 128]. -/
theorem tail_eq (c : Dev nD) :
    Pipeline.afterTail₀ cfgs (dats m) 0 (V0 m) [hostOps1] c main_v24
      = shapeCast S32x512x25x128 ((dats m 0 c).arrAt 4 cfg0.N) shapeCasts_S409600x128_S32x512x25x128 := by
  unfold Pipeline.afterTail₀
  show StableHlo.after hostOps1 _ (Proc.devRef .tc main_v24) = _
  after_results
  have hw : Pipeline.withArrays (cfgs 0).spec c (V0 m c) (fun w => (dats m 0 c).arrAt w (cfgs 0).N) (Proc.devRef .tc main_v23)
      = (dats m 0 c).arrAt 4 cfg0.N :=
    Pipeline.withArrays_arr spec0 launch0.win.arr_inj c _ _ 4
  exact congrArg (fun A : S409600x128.Idx → EReal =>
    shapeCast S32x512x25x128 A shapeCasts_S409600x128_S32x512x25x128) hw

/-! ## The kernel's result and run -/

/-- The kernel's result: at (b, n, p, dd), row (b, n, p) of the patches through the specification's row function with
    the two tables and the mask's entry (n, p). -/
def result (c : Dev nD) : S32x512x25x128.Idx → EReal := fun i =>
  rowFn (fun d => (m ((c.tc : Thread nD τ).loc main_arg0) : S32x512x25x128.Idx → EReal) (ix4 (i 0) (i 1) (i 2) d))
    (m ((c.tc : Thread nD τ).loc main_arg1)) (m ((c.tc : Thread nD τ).loc main_arg2))
    (maskNP m c (ix2 (i 1) (i 2))) (i 3)

/-- After the last host line the result buffer holds `result`. -/
theorem tail_value (c : Dev nD) :
    Pipeline.afterTail₀ cfgs (dats m) 0 (V0 m) [hostOps1] c main_v24 = result m c := by
  rw [tail_eq, flat_final]
  funext i
  obtain ⟨b, n, p, dd, rfl⟩ : ∃ (b : Fin 32) (n : Fin 512) (p : Fin 25) (dd : Fin 128), i = ix4 b n p dd :=
    ⟨i 0, i 1, i 2, i 3, eq_ix4 i⟩
  refine (shapeCast_apply (s := S409600x128) (t := S32x512x25x128) _ _ (ix4 b n p dd) (ix2 (flatRow b n p) dd) ?_).trans ?_
  · show (S409600x128.rowMajor (ix2 (flatRow b n p) dd)).val = (S32x512x25x128.rowMajor (ix4 b n p dd)).val
    rw [Shape.rowMajor_val_two, Shape.rowMajor_val_four]
    show ((b.val * 512 + n.val) * 25 + p.val) * 128 + dd.val = ((b.val * 512 + n.val) * 25 + p.val) * 128 + dd.val
    rfl
  · show rowFn (fun d => V m c main_v22 (ix2 (flatRow b n p) d)) (V m c main_arg1) (V m c main_arg2)
        (V m c main_v21 (ix2 (flatRow b n p) (0 : Fin 1))) dd = result m c (ix4 b n p dd)
    rw [V_main_arg1, V_main_arg2, mask_entry]
    have hx : (fun d : Fin 128 => (V m c main_v22 : S409600x128.Idx → EReal) (ix2 (flatRow b n p) d))
        = fun d => (m ((c.tc : Thread nD τ).loc main_arg0) : S32x512x25x128.Idx → EReal) (ix4 b n p d) :=
      funext fun d => patches_entry m c b n p d
    exact congrArg (fun f : Fin 128 → EReal =>
      rowFn f (m ((c.tc : Thread nD τ).loc main_arg1)) (m ((c.tc : Thread nD τ).loc main_arg2)) (maskNP m c (ix2 n p)) dd) hx

/-- Every weakly fair execution of the kernel program terminates with the result buffer at `result` and the five
    arguments as launched. -/
theorem run : θ_run defs (onTc (τ := τ) (main (F := Ideal))) ⟨m, fun _ => 0, ρ⟩ fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v24 (Pipeline.mem_restRefs_of main_v24 (by decide) (by decide))).trans (tail_value m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.Prompt.Kernel

end
-- ==== Proof.RefRead.lean ====
/-
  The reference's result, read at one entry.

  The reference contracts the patches with each prompt table over the feature axis, applies the logistic function spelled
  as `1 / (1 + e^(−s))`, keeps scores above one half, scales by the mask (by `1 − mask` in the masked-prompt pass), contracts
  back with the table over the prompt axis, and adds both passes onto the patches. Read at entry (b, n, p, dd) this is the
  specification's row function of row (b, n, p) of the patches, the two tables and the mask's entry (n, p).
-/
import proofs.«104649_j56719338111252_1_alg».proof.Proof.Gen.ReferenceIdeal.Read
import proofs.«104649_j56719338111252_1_alg».proof.Proof.Spec
import Idealize.ShloMosaic.Lib.ValueIdx
import Idealize.ShloMosaic.PureOps.Ideal.Laws

noncomputable section

open scoped BigOperators

namespace Cert.Prompt.Reference

open Idealize.ShloMosaic Idealize.ShloMosaic.ValueIdx Cert.ReferenceIdeal Cert.ReferenceIdeal.Gen Cert.ReferenceIdeal.Read Cert.Prompt

/-! ### Where each contraction and broadcast reads

Each generated index function, taken at an index given by its coordinates, is again an index given by coordinates. -/

/-- The forward contraction at (b, n, p, k) reads the patches at (b, n, p, d). -/
theorem lidx18 (b : Fin 32) (n : Fin 512) (p : Fin 25) (k : Fin 64) (d : Fin 128) :
    lidx_main_v18 (ix4 b n p k) d = ix4 b n p d :=
  funext fun a => Fin.ext (by match a with | ⟨0, _⟩ => rfl | ⟨1, _⟩ => rfl | ⟨2, _⟩ => rfl | ⟨3, _⟩ => rfl)

/-- The forward contraction at (b, n, p, k) reads the table at (k, d). -/
theorem ridx18 (b : Fin 32) (n : Fin 512) (p : Fin 25) (k : Fin 64) (d : Fin 128) :
    ridx_main_v18 (ix4 b n p k) d = ix2 k d :=
  funext fun a => Fin.ext (by match a with | ⟨0, _⟩ => rfl | ⟨1, _⟩ => rfl)

/-- The same for the masked-prompt pass. -/
theorem lidx33 (b : Fin 32) (n : Fin 512) (p : Fin 25) (k : Fin 64) (d : Fin 128) :
    lidx_main_v33 (ix4 b n p k) d = ix4 b n p d :=
  funext fun a => Fin.ext (by match a with | ⟨0, _⟩ => rfl | ⟨1, _⟩ => rfl | ⟨2, _⟩ => rfl | ⟨3, _⟩ => rfl)

theorem ridx33 (b : Fin 32) (n : Fin 512) (p : Fin 25) (k : Fin 64) (d : Fin 128) :
    ridx_main_v33 (ix4 b n p k) d = ix2 k d :=
  funext fun a => Fin.ext (by match a with | ⟨0, _⟩ => rfl | ⟨1, _⟩ => rfl)

/-- The back projection at (b, n, p, dd) reads the scaled scores at (b, n, p, k). -/
theorem lidx31 (b : Fin 32) (n : Fin 512) (p : Fin 25) (dd : Fin 128) (k : Fin 64) :
    lidx_main_v31 (ix4 b n p dd) k = ix4 b n p k :=
  funext fun a => Fin.ext (by match a with | ⟨0, _⟩ => rfl | ⟨1, _⟩ => rfl | ⟨2, _⟩ => rfl | ⟨3, _⟩ => rfl)

/-- The back projection at (b, n, p, dd) reads the table at (k, dd). -/
theorem ridx31 (b : Fin 32) (n : Fin 512) (p : Fin 25) (dd : Fin 128) (k : Fin 64) :
    ridx_main_v31 (ix4 b n p dd) k = ix2 k dd :=
  funext fun a => Fin.ext (by match a with | ⟨0, _⟩ => rfl | ⟨1, _⟩ => rfl)

theorem lidx48 (b : Fin 32) (n : Fin 512) (p : Fin 25) (dd : Fin 128) (k : Fin 64) :
    lidx_main_v48 (ix4 b n p dd) k = ix4 b n p k :=
  funext fun a => Fin.ext (by match a with | ⟨0, _⟩ => rfl | ⟨1, _⟩ => rfl | ⟨2, _⟩ => rfl | ⟨3, _⟩ => rfl)

theorem ridx48 (b : Fin 32) (n : Fin 512) (p : Fin 25) (dd : Fin 128) (k : Fin 64) :
    ridx_main_v48 (ix4 b n p dd) k = ix2 k dd :=
  funext fun a => Fin.ext (by match a with | ⟨0, _⟩ => rfl | ⟨1, _⟩ => rfl)

/-- The mask broadcast over batch and prompt reads the mask at (n, p). -/
theorem idx29 (b : Fin 32) (n : Fin 512) (p : Fin 25) (k : Fin 64) :
    idx_main_v17 (idx_main_v29 (ix4 b n p k)) = ix2 n p :=
  funext fun a => Fin.ext (by match a with | ⟨0, _⟩ => rfl | ⟨1, _⟩ => rfl)

theorem idx46 (b : Fin 32) (n : Fin 512) (p : Fin 25) (k : Fin 64) :
    idx_main_v17 (idx_main_v46 (ix4 b n p k)) = ix2 n p :=
  funext fun a => Fin.ext (by match a with | ⟨0, _⟩ => rfl | ⟨1, _⟩ => rfl)

/-! ### One pass: the gated logistic score -/

/-- The unmasked-prompt pass's gated score at (b, n, p, k) is the specification's score of row (b, n, p) against prompt k. -/
theorem pass_u (x0 : (⟨S32x512x25x128, .f32⟩ : BufTy).Contents (Elt Ideal))
    (x1 : (⟨S64x128, .f32⟩ : BufTy).Contents (Elt Ideal))
    (b : Fin 32) (n : Fin 512) (p : Fin 25) (k : Fin 64) :
    val_main_v28 (F := Ideal) x0 x1 (ix4 b n p k) = score (fun d => x0 (ix4 b n p d)) x1 k := by
  -- Read the stages down to the contraction over the 128 features.
  simp only [val_main_v28_apply, val_main_v27_apply, val_main_v26_apply, val_main_v25_apply, val_main_cst_7_apply,
    val_main_v24_apply, val_main_v23_apply, val_main_cst_6_apply, val_main_v22_apply, val_main_v21_apply,
    val_main_cst_5_apply, val_main_v20_apply, val_main_v19_apply, val_main_v18_apply, lidx18, ridx18]
  -- The specification's logistic function is the quotient the reference spells out; the threshold test and its
  -- 0/1 value then agree term by term.
  simp only [score, gate, ind, ← logistic_expanded]
  rfl

/-- The masked-prompt pass's gated score at (b, n, p, k) is the specification's score of row (b, n, p) against prompt k
    of the second table. -/
theorem pass_m (x0 : (⟨S32x512x25x128, .f32⟩ : BufTy).Contents (Elt Ideal))
    (x2 : (⟨S64x128, .f32⟩ : BufTy).Contents (Elt Ideal))
    (b : Fin 32) (n : Fin 512) (p : Fin 25) (k : Fin 64) :
    val_main_v43 (F := Ideal) x0 x2 (ix4 b n p k) = score (fun d => x0 (ix4 b n p d)) x2 k := by
  -- Read the stages down to the contraction over the 128 features.
  simp only [val_main_v43_apply, val_main_v42_apply, val_main_v41_apply, val_main_v40_apply, val_main_cst_10_apply,
    val_main_v39_apply, val_main_v38_apply, val_main_cst_9_apply, val_main_v37_apply, val_main_v36_apply,
    val_main_cst_8_apply, val_main_v35_apply, val_main_v34_apply, val_main_v33_apply, lidx33, ridx33]
  -- The specification's logistic function is the quotient the reference spells out; the threshold test and its
  -- 0/1 value then agree term by term.
  simp only [score, gate, ind, ← logistic_expanded]
  rfl

/-- Entry (b, n, p, dd) of the reference's result is the specification's row function of row (b, n, p) of the patches,
    the two tables, and entry (n, p) of the mask the reference builds from the masked token indices. -/
theorem result_apply (x0 : (⟨S32x512x25x128, .f32⟩ : BufTy).Contents (Elt Ideal))
    (x1 x2 : (⟨S64x128, .f32⟩ : BufTy).Contents (Elt Ideal)) (x3 : (⟨S256, .i32⟩ : BufTy).Contents (Elt Ideal))
    (b : Fin 32) (n : Fin 512) (p : Fin 25) (dd : Fin 128) :
    val_main_v49 (F := Ideal) x0 x1 x2 x3 (ix4 b n p dd)
      = rowFn (fun d => x0 (ix4 b n p d)) x1 x2 (val_main_v16 (F := Ideal) x3 (ix2 n p)) dd := by
  -- The result is the patches' entry plus the two back projections, each a sum over the 64 prompts.
  rw [val_main_v49_apply, val_main_v32_apply, val_main_v31_apply, val_main_v48_apply]
  -- Each summand is a pass's score at (b, n, p, k), times the mask's entry (n, p) or one minus it, times the
  -- table's entry (k, dd).
  simp only [lidx31, ridx31, lidx48, ridx48, val_main_v30_apply, val_main_v47_apply, val_main_v29_apply,
    val_main_v46_apply, val_main_v45_apply, val_main_v44_apply, val_main_cst_11_apply, val_main_v17_apply,
    idx29, idx46, pass_u, pass_m]
  -- What is left is the row function itself, sums and products in the same order.
  unfold rowFn
  rfl

end Cert.Prompt.Reference

end
-- ==== Proof.lean ====
/-
  A prompt-attention block over patches x : [32, 512, 25, 128] with two prompt tables u, m : [64, 128] and a
  (token, time) mask built from the masked token indices: the result at (b, n, p, ·) is
      x + (g(σ(x uᵀ)) · keep[n, p]) u + (g(σ(x mᵀ)) · (1 − keep[n, p])) m,
  σ the logistic function and g(s) = s when s > 1/2, else 0.

  The kernel flattens the patches to 409600 rows, lays the mask out as a column of the same height, and computes 8192
  rows per grid point with the tables resident; the reference contracts the four-axis arrays directly and spells σ as
  1 / (1 + e^(−s)). Over the extended reals a change of float format is the identity and a matrix product is the plain
  sum over the contracted axis, so both programs compute, entry by entry, the same expression (`Cert.Prompt.rowFn`) of
  the same row of x, the same tables and the same mask entry: the kernel's side is `Cert.Prompt.Kernel.run`, the
  reference's `Cert.Prompt.Reference.result_apply`, and the two masks are one term of the token indices (`mask_agree`).
  No law of the extended reals beyond this syntactic agreement is used, so the precondition is never opened.
-/
import proofs.«104649_j56719338111252_1_alg».proof.Defs
import proofs.«104649_j56719338111252_1_alg».proof.Proof.Gen.Kernel
import proofs.«104649_j56719338111252_1_alg».proof.Proof.Gen.Kernel.Frame
import proofs.«104649_j56719338111252_1_alg».proof.Proof.Gen.KernelIdeal
import proofs.«104649_j56719338111252_1_alg».proof.Proof.Gen.KernelIdeal.Frame
import proofs.«104649_j56719338111252_1_alg».proof.Proof.Gen.ReferenceIdeal
import proofs.«104649_j56719338111252_1_alg».proof.Proof.Gen.Pre_finite_inputs
import proofs.«104649_j56719338111252_1_alg».proof.Proof.Gen.ReferenceIdeal.Run
import proofs.«104649_j56719338111252_1_alg».proof.Proof.Gen.ReferenceIdeal.Read
import proofs.«104649_j56719338111252_1_alg».proof.Proof.KernelArray
import proofs.«104649_j56719338111252_1_alg».proof.Proof.RefRead
import Idealize.ShloMosaic.Lib.StableHlo.Run
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel runs and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs build the (token, time) mask by the same host lines — ones with zeros scattered at the masked token
    indices (negative indices wrapped by 512 first), times ones with a zero at time 24 —, so over one array of token
    indices the kernel's mask, as the region finds it, is the reference's. -/
theorem mask_agree (m : (ℓ : Loc Cert.KernelIdeal.nD Cert.KernelIdeal.τ Cert.KernelIdeal.sig) → Buf (Elt Ideal) ℓ)
    (c : Dev Cert.KernelIdeal.nD) :
    Cert.Prompt.Kernel.maskNP m c
      = Cert.ReferenceIdeal.Read.val_main_v16 (F := Ideal)
          (m ((c.tc : Thread Cert.KernelIdeal.nD Cert.KernelIdeal.τ).loc Cert.KernelIdeal.main_arg3)) := by
  show StableHlo.after Cert.KernelIdeal.Gen.hostOps0 (fun b => m (c, b)) (Proc.devRef .tc Cert.KernelIdeal.main_v16) = _
  after_results
  rfl

/-- The idealized kernel and the idealized reference, from memories that agree on the arguments, both run and end
    with the same result, entry by entry. -/
theorem algebraic : Cert.algebraic_KernelIdeal_ReferenceIdeal := by
  intro m ρ m' ρ' _ hagree
  refine ⟨fun c => Cert.Prompt.Kernel.result m c, Cert.Prompt.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1]
  funext i
  obtain ⟨b, n, p, dd, rfl⟩ : ∃ (b : Fin 32) (n : Fin 512) (p : Fin 25) (dd : Fin 128), i = ix4 b n p dd :=
    ⟨i 0, i 1, i 2, i 3, eq_ix4 i⟩
  rw [Cert.Prompt.Reference.result_apply, ← mask_agree]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
